-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S65536 : Shape := ⟨1, ![65536]⟩
abbrev S_ : Shape := ⟨0, ![]⟩

class Facts : Prop where
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S32x16x256x256 .f32) (main_arg1 : FVec F S32x16x256x256 .f32) (main_arg2 : FVec F S65536 .f32) (main_arg3 : FVec F S65536 .f32) : IVec S_ 1 :=
  let main_v0 : FVec F S32x16x256x256 .f32 := Host.absf main_arg0
  let main_cst : FVec F S_ .f32 := constant S_ .f32 0x7F800000#32
  let main_v1 : FVec F S32x16x256x256 .f32 := broadcastInDim S32x16x256x256 ![] bcast_S_S32x16x256x256 main_cst
  let main_v2 : IVec S32x16x256x256 1 := cmpf .olt main_v0 main_v1
  let main_c : IVec S_ 1 := constantI S_ 1 1#1
  let main_v3 : IVec S_ 1 := (fun x v => Host.reduce IntOp.andi x v reducesTo_S32x16x256x256_S_d0_1_2_3 h_S_) main_v2 main_c
  let main_v4 : FVec F S32x16x256x256 .f32 := Host.absf main_arg1
  let main_cst_0 : FVec F S_ .f32 := constant S_ .f32 0x7F800000#32
  let main_v5 : FVec F S32x16x256x256 .f32 := broadcastInDim S32x16x256x256 ![] bcast_S_S32x16x256x256 main_cst_0
  let main_v6 : IVec S32x16x256x256 1 := cmpf .olt main_v4 main_v5
  let main_c_1 : IVec S_ 1 := constantI S_ 1 1#1
  let main_v7 : IVec S_ 1 := (fun x v => Host.reduce IntOp.andi x v reducesTo_S32x16x256x256_S_d0_1_2_3 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S32x16x256x256 : Shape := ⟨4, ![32, 16, 256, 256]⟩
abbrev S65536 : Shape := ⟨1, ![65536]⟩
abbrev S512x256x256 : Shape := ⟨3, ![512, 256, 256]⟩
abbrev S256x256 : Shape := ⟨2, ![256, 256]⟩
abbrev S16x256x256 : Shape := ⟨3, ![16, 256, 256]⟩
abbrev S1x256x256 : Shape := ⟨3, ![1, 256, 256]⟩

abbrev nBuf : Space → Nat
  | .hbm => 12
  | .vmem => 10
  | .smem => 0
  | _ => 0

abbrev bufTy : (tb : Table) → Fin (tcTables nBuf tb) → BufTy
  | .hbm, ⟨0, _⟩ => ⟨S32x16x256x256, .f32⟩
  | .hbm, ⟨1, _⟩ => ⟨S32x16x256x256, .f32⟩
  | .hbm, ⟨2, _⟩ => ⟨S65536, .f32⟩
  | .hbm, ⟨3, _⟩ => ⟨S65536, .f32⟩
  | .hbm, ⟨4, _⟩ => ⟨S512x256x256, .f32⟩
  | .hbm, ⟨5, _⟩ => ⟨S512x256x256, .f32⟩
  | .hbm, ⟨6, _⟩ => ⟨S256x256, .f32⟩
  | .hbm, ⟨7, _⟩ => ⟨S256x256, .f32⟩
  | .hbm, ⟨8, _⟩ => ⟨S512x256x256, .f32⟩
  | .hbm, ⟨9, _⟩ => ⟨S512x256x256, .f32⟩
  | .hbm, ⟨10, _⟩ => ⟨S32x16x256x256, .f32⟩
  | .hbm, ⟨11, _⟩ => ⟨S32x16x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S256x256, .f32⟩
  | .local _ .vmem, ⟨5, _⟩ => ⟨S256x256, .f32⟩
  | .local _ .vmem, ⟨6, _⟩ => ⟨S16x256x256, .f32⟩
  | .local _ .vmem, ⟨7, _⟩ => ⟨S16x256x256, .f32⟩
  | .local _ .vmem, ⟨8, _⟩ => ⟨S16x256x256, .f32⟩
  | .local _ .vmem, ⟨9, _⟩ => ⟨S16x256x256, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x16x256x256_S512x256x256 : S32x16x256x256.ShapeCasts S512x256x256
  shapeCasts_S65536_S256x256 : S65536.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  shapeCasts_S256x256_S1x256x256 : S256x256.ShapeCasts S1x256x256
  broadcasts_S1x256x256_S16x256x256 : S1x256x256.Broadcasts S16x256x256
  shapeCasts_S512x256x256_S32x16x256x256 : S512x256x256.ShapeCasts S32x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S512x256x256.size a
  hwx0_1 : ∀ i : grid0.Coords, EltTy.bits .f32 = 32 ∨ (Rect.block (s := S512x256x256) S16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S512x256x256.size a
  hwx0_4 : ∀ i : grid0.Coords, EltTy.bits .f32 = 32 ∨ (Rect.block (s := S512x256x256) S16x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x256.size a ≤ S512x256x256.size a
  hwx0_5 : ∀ i : grid0.Coords, EltTy.bits .f32 = 32 ∨ (Rect.block (s := S512x256x256) S16x256x256.size (cc0_transform_5 i) (hinb0_5 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x16x256x256 : Shape := ⟨4, ![32, 16, 256, 256]⟩
abbrev S65536 : Shape := ⟨1, ![65536]⟩
abbrev S256x256 : Shape := ⟨2, ![256, 256]⟩
abbrev S1x1x256x256 : Shape := ⟨4, ![1, 1, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S32x16x256x256, .f32⟩
  | .hbm, ⟨1, _⟩ => ⟨S32x16x256x256, .f32⟩
  | .hbm, ⟨2, _⟩ => ⟨S65536, .f32⟩
  | .hbm, ⟨3, _⟩ => ⟨S65536, .f32⟩
  | .hbm, ⟨4, _⟩ => ⟨S65536, .f32⟩
  | .hbm, ⟨5, _⟩ => ⟨S256x256, .f32⟩
  | .hbm, ⟨6, _⟩ => ⟨S65536, .f32⟩
  | .hbm, ⟨7, _⟩ => ⟨S256x256, .f32⟩
  | .hbm, ⟨8, _⟩ => ⟨S1x1x256x256, .f32⟩
  | .hbm, ⟨9, _⟩ => ⟨S32x16x256x256, .f32⟩
  | .hbm, ⟨10, _⟩ => ⟨S32x16x256x256, .f32⟩
  | .hbm, ⟨11, _⟩ => ⟨S1x1x256x256, .f32⟩
  | .hbm, ⟨12, _⟩ => ⟨S32x16x256x256, .f32⟩
  | .hbm, ⟨13, _⟩ => ⟨S32x16x256x256, .f32⟩
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S65536_S256x256 : S65536.ShapeCasts S256x256
  bcast_S256x256_S1x1x256x256_2_3 : S256x256.BroadcastsInDim S1x1x256x256 (![2, 3] : Fin 2 → Fin S1x1x256x256.rank)
  bcast_S1x1x256x256_S32x16x256x256_0_1_2_3 : S1x1x256x256.BroadcastsInDim S32x16x256x256 (![0, 1, 2, 3] : Fin 4 → Fin S32x16x256x256.rank)

variable [Facts₀]

class Facts : Prop extends Facts₀ where

variable [Facts]
-- ==== Proof.ScaleSpec.lean ====
/-
  The function both programs compute, and the index arithmetic of the reshapes around it.

  `x` is an array of shape [32, 16, 256, 256] and `β` a vector of 65536 entries. The result at (a, b, p, q) is
  `x[a, b, p, q] · exp β[256·p + q]`: every 256 × 256 plane of `x` is scaled, entry by entry, by the exponential of `β` read as
  a 256 × 256 matrix in row-major order. One program works on `x` with its two leading axes merged, [512, 256, 256], sixteen
  planes at a time, and reshapes `β` to a matrix before taking the exponential; the other takes the exponential of the flat
  vector first and broadcasts its reshape over the two leading axes. The facts below read each reshape at an index: plane
  (a, b) of the rank-4 array is plane 16·a + b of the rank-3 one, and entry (p, q) of the matrix is entry 256·p + q of the
  vector. Nothing here depends on the values being finite: the two sides are the same product, never regrouped.
-/
import Idealize.ShloMosaic.PureOps.Ideal
import Idealize.ShloMosaic.Lib.ValueIdx
import Idealize.ShloMosaic.Lib.Pipeline.Value
import Idealize.ShloMosaic.Lib.ValueLayout

noncomputable section

namespace Cert.PlaneScale

open Idealize.ShloMosaic Idealize.ShloMosaic.ValueIdx

/-- The array as the programs receive it: 32 × 16 planes of 256 × 256. -/
abbrev Planes4 : Shape := ⟨4, ![32, 16, 256, 256]⟩
/-- The same array with its two leading axes merged: 512 planes. -/
abbrev Planes3 : Shape := ⟨3, ![512, 256, 256]⟩
/-- Sixteen consecutive planes. -/
abbrev Block : Shape := ⟨3, ![16, 256, 256]⟩
/-- One plane with a leading unit axis. -/
abbrev Unit3 : Shape := ⟨3, ![1, 256, 256]⟩
/-- One plane. -/
abbrev Mat : Shape := ⟨2, ![256, 256]⟩
/-- The scale's exponents as a flat vector. -/
abbrev Flat : Shape := ⟨1, ![65536]⟩

/-- Entry (p, q) of a 256 × 256 matrix stored row by row is entry 256·p + q of the flat vector. -/
def flat (p q : Fin 256) : Fin 65536 := ⟨p.val * 256 + q.val, by have := p.isLt; have := q.isLt; omega⟩

/-- Plane (a, b) of the 32 × 16 planes is plane 16·a + b of the 512. -/
def plane (a : Fin 32) (b : Fin 16) : Fin 512 := ⟨a.val * 16 + b.val, by have := a.isLt; have := b.isLt; omega⟩

variable {F : FTy → Type} [FloatOps F]

/-- THE RESULT: `x` scaled plane by plane, entry (p, q) of every plane by `exp β[256·p + q]`. -/
def scaled (x : Planes4.Idx → F .f32) (β : Flat.Idx → F .f32) : Planes4.Idx → F .f32 :=
  fun i => FloatOps.mulf (x i) (FloatOps.exp (β (ix1 (flat (i 2) (i 3)))))

/-- The same on the merged array, with the exponents already a matrix: what sixteen planes at a time are blocks of. -/
def scaledPlanes (X : Planes3.Idx → F .f32) (B : Mat.Idx → F .f32) : Planes3.Idx → F .f32 :=
  fun k => FloatOps.mulf (X k) (FloatOps.exp (B (ix2 (k 1) (k 2))))

variable {α : Type}

/-- The flat vector reshaped to a matrix, at (p, q), is the vector at 256·p + q. -/
theorem flat_to_mat_apply (v : Flat.Idx → α) (h : Flat.ShapeCasts Mat) (p q : Fin 256) :
    shapeCast Mat v h (ix2 p q) = v (ix1 (flat p q)) :=
  shapeCast_apply v h _ _ (by rw [Shape.rowMajor_val_one, Shape.rowMajor_val_two]; rfl)

/-- The rank-4 array with its leading axes merged, at plane 16·a + b, is the array at (a, b). -/
theorem merge_planes_apply (x : Planes4.Idx → α) (h : Planes4.ShapeCasts Planes3) (a : Fin 32) (b : Fin 16) (p q : Fin 256) :
    shapeCast Planes3 x h (ix3 (plane a b) p q) = x (ix4 a b p q) :=
  shapeCast_apply x h _ _ (by rw [Shape.rowMajor_val_four, Shape.rowMajor_val_three]; rfl)

/-- The rank-3 array with its leading axis split, at (a, b), is the array at plane 16·a + b. -/
theorem split_planes_apply (y : Planes3.Idx → α) (h : Planes3.ShapeCasts Planes4) (a : Fin 32) (b : Fin 16) (p q : Fin 256) :
    shapeCast Planes4 y h (ix4 a b p q) = y (ix3 (plane a b) p q) :=
  shapeCast_apply y h _ _ (by rw [Shape.rowMajor_val_three, Shape.rowMajor_val_four]; rfl)

/-- One plane broadcast over sixteen reads, at (n, p, q), the plane at (p, q). -/
theorem plane_over_block_apply (e : Mat.Idx → α) (h3 : Mat.ShapeCasts Unit3) (h4 : Unit3.Broadcasts Block)
    (n : Fin 16) (p q : Fin 256) :
    broadcastTo Block (shapeCast Unit3 e h3) h4 (ix3 n p q) = e (ix2 p q) := by
  refine (broadcastTo_apply _ h4 (ix3 n p q) (ix3 (0 : Fin 1) p q) (fun a => ?_)).trans
    (shapeCast_ab_1ab_apply e h3 0 p q)
  match a with
  | ⟨0, _⟩ => show (0 : ℕ) = if (1 : ℕ) = 1 then 0 else _; rw [if_pos rfl]
  | ⟨1, _⟩ => show p.val = if (256 : ℕ) = 1 then 0 else p.val; rw [if_neg (by decide)]
  | ⟨2, _⟩ => show q.val = if (256 : ℕ) = 1 then 0 else q.val; rw [if_neg (by decide)]

/-- SIXTEEN PLANES SCALED: the planes times the broadcast exponential of the exponent matrix, the identity casts the
    program writes around its loads included, read at (n, p, q). -/
theorem scale_block_at (v0 : Mat.Idx → F .f32) (v6 : Block.Idx → F .f32) (h1 : Mat.ShapeCasts Mat)
    (h2 : Block.ShapeCasts Block) (h3 : Mat.ShapeCasts Unit3) (h4 : Unit3.Broadcasts Block) (n : Fin 16) (p q : Fin 256) :
    mulf (shapeCast Block v6 h2) (broadcastTo Block (shapeCast Unit3 (exp (shapeCast Mat v0 h1)) h3) h4) (ix3 n p q)
      = FloatOps.mulf (v6 (ix3 n p q)) (FloatOps.exp (v0 (ix2 p q))) := by
  show FloatOps.mulf (shapeCast Block v6 h2 (ix3 n p q))
    (broadcastTo Block (shapeCast Unit3 (exp (shapeCast Mat v0 h1)) h3) h4 (ix3 n p q)) = _
  rw [shapeCast_self v6 h2, shapeCast_self v0 h1, plane_over_block_apply (exp v0) h3 h4 n p q]
  rfl

/-- The same at any index of the sixteen planes: the exponent read at the index's two trailing coordinates. -/
theorem scale_block_apply (v0 : Mat.Idx → F .f32) (v6 : Block.Idx → F .f32) (h1 : Mat.ShapeCasts Mat)
    (h2 : Block.ShapeCasts Block) (h3 : Mat.ShapeCasts Unit3) (h4 : Unit3.Broadcasts Block) (j : Block.Idx) :
    mulf (shapeCast Block v6 h2) (broadcastTo Block (shapeCast Unit3 (exp (shapeCast Mat v0 h1)) h3) h4) j
      = FloatOps.mulf (v6 j) (FloatOps.exp (v0 (ix2 (j 1) (j 2)))) := by
  obtain ⟨n, p, q, rfl⟩ : ∃ (n : Fin 16) (p q : Fin 256), j = ix3 n p q := ⟨j 0, j 1, j 2, eq_ix3 j⟩
  exact scale_block_at v0 v6 h1 h2 h3 h4 n p q

/-- THE RESULT through the merged layout: split the scaled 512 planes back into 32 × 16 and it is `scaled` of the
    arguments, when the 512 planes are the argument merged and the matrix is the exponent vector reshaped. -/
theorem split_scaledPlanes (x : Planes4.Idx → F .f32) (β : Flat.Idx → F .f32) (h43 : Planes4.ShapeCasts Planes3)
    (h34 : Planes3.ShapeCasts Planes4) (h12 : Flat.ShapeCasts Mat) :
    shapeCast Planes4 (scaledPlanes (shapeCast Planes3 x h43) (shapeCast Mat β h12)) h34 = scaled x β := by
  funext i
  obtain ⟨a, b, p, q, rfl⟩ : ∃ (a : Fin 32) (b : Fin 16) (p q : Fin 256), i = ix4 a b p q := ⟨i 0, i 1, i 2, i 3, eq_ix4 i⟩
  rw [split_planes_apply _ h34 a b p q]
  show FloatOps.mulf (shapeCast Planes3 x h43 (ix3 (plane a b) p q)) (FloatOps.exp (shapeCast Mat β h12 (ix2 p q))) = _
  rw [merge_planes_apply x h43 a b p q, flat_to_mat_apply β h12 p q]
  rfl

end Cert.PlaneScale

end
-- ==== Proof.KernelBlocks.lean ====
/-
  What the kernel's pipeline leaves in its two output arrays.

  The kernel sees each argument array with its two leading axes merged, 512 planes of 256 × 256, and walks them in 32 grid
  points of sixteen planes. At every point the body loads the sixteen planes and the whole 256 × 256 exponent matrix, and
  stores the planes times the exponential of the matrix, broadcast over the sixteen. So what point `t` writes back is block
  `t` of ONE function of the arrays the region finds, `X[k, p, q] · exp B[p, q]`; the 32 blocks are disjoint and cover the 512
  planes (plane `k` lies in block `k / 16`), so after the run the output array is that function everywhere.
-/
import proofs.«112046_g29025388986544_feedfinal_290_2_alg».proof.Proof.Gen.KernelIdeal.Frame
import proofs.«112046_g29025388986544_feedfinal_290_2_alg».proof.Proof.ScaleSpec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.PlaneScale
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The first store's value at an index of the sixteen planes: the plane's entry times the exponential of the
    exponent matrix at the entry's position in its plane. -/
theorem k0_pay1_apply (v0 : Vec F S256x256 .f32) (v6 : Vec F S16x256x256 .f32) (j : S16x256x256.Idx) :
    k0_pay1 v0 v6 j = FloatOps.mulf (v6 j) (FloatOps.exp (v0 (ix2 (j 1) (j 2)))) := by
  unfold k0_pay1
  exact scale_block_apply v0 v6 _ _ _ _ j

/-- The second store's value, the same of the second pair of loads. -/
theorem k0_pay2_apply (v3 : Vec F S256x256 .f32) (v12 : Vec F S16x256x256 .f32) (j : S16x256x256.Idx) :
    k0_pay2 v3 v12 j = FloatOps.mulf (v12 j) (FloatOps.exp (v3 (ix2 (j 1) (j 2)))) := by
  unfold k0_pay2
  exact scale_block_apply v3 v12 _ _ _ _ j

/-- The index maps over the grid: point `t` addresses block `t` of sixteen planes in both plane inputs and both
    outputs, and the one block of each exponent matrix. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- WHAT POINT `t` WRITES BACK through output window 4: block `t` of the first merged argument scaled by the
    exponential of its exponent matrix. The input planes' block moves with the output's; the exponent matrix is one
    block, the same at every point. -/
theorem flushed4_eq (c : Dev nD) (t : Fin cfg0.N) :
    (dats m 0 c).flushed 4 t
      = ((cfg0.win 4).blk t).view.read (Elt F) (scaledPlanes (V m c main_v0) (V m c main_v2)) := by
  show (cfg0.win 4).cut (grid0.coords t) ((dats m 0 c).after 4 t) = _
  rw [after0_4]
  unfold out0_4
  rw [View.canon_unit_zero hz3]
  simp only [View.ld_unit_zero (S := S16x256x256) hz3, View.ld_unit_zero (S := S256x256) hz2]
  obtain ⟨e00, e01, e02, e10, e11, e12, e20, e21, e30, e31, e40, e41, e42, e50, e51, e52⟩ := idx_facts t
  funext j
  show k0_pay1 (iblk m c 2 t) (iblk m c 0 t) j = _
  refine (k0_pay1_apply (iblk m c 2 t) (iblk m c 0 t) j).trans ?_
  show FloatOps.mulf (V m c main_v0 (((cfg0.win 0).blk t).view.emb j))
      (FloatOps.exp (V m c main_v2 (((cfg0.win 2).blk t).view.emb (ix2 (j 1) (j 2)))))
    = FloatOps.mulf (V m c main_v0 (((cfg0.win 4).blk t).view.emb j))
      (FloatOps.exp (V m c main_v2 (ix2 ((((cfg0.win 4).blk t).view.emb j) 1) ((((cfg0.win 4).blk t).view.emb j) 2))))
  have hx : ((cfg0.win 0).blk t).view.emb j = ((cfg0.win 4).blk t).view.emb j := by
    funext a; apply Fin.ext
    match a with
    | ⟨0, _⟩ => show win0_0.index t (0 : Fin 3) * 16 + 1 * (j 0).val = win0_4.index t (0 : Fin 3) * 16 + 1 * (j 0).val; omega
    | ⟨1, _⟩ => show win0_0.index t (1 : Fin 3) * 256 + 1 * (j 1).val = win0_4.index t (1 : Fin 3) * 256 + 1 * (j 1).val; omega
    | ⟨2, _⟩ => show win0_0.index t (2 : Fin 3) * 256 + 1 * (j 2).val = win0_4.index t (2 : Fin 3) * 256 + 1 * (j 2).val; omega
  have hb : ((cfg0.win 2).blk t).view.emb (ix2 (j 1) (j 2))
      = ix2 ((((cfg0.win 4).blk t).view.emb j) 1) ((((cfg0.win 4).blk t).view.emb j) 2) := by
    funext a; apply Fin.ext
    match a with
    | ⟨0, _⟩ => show win0_2.index t (0 : Fin 2) * 256 + 1 * (j 1).val = win0_4.index t (1 : Fin 3) * 256 + 1 * (j 1).val; omega
    | ⟨1, _⟩ => show win0_2.index t (1 : Fin 2) * 256 + 1 * (j 2).val = win0_4.index t (2 : Fin 3) * 256 + 1 * (j 2).val; omega
  rw [hx, hb]
  rfl

/-- An index of the merged array is in point `t`'s block of window 4 iff each coordinate is in the block's range. -/
theorem mem_blk4 (t : Fin cfg0.N) (i : S512x256x256.Idx) :
    i ∈ ((cfg0.win 4).blk t).view.set ↔ ∀ a : Fin 3, win0_4.index t a * S16x256x256.size a ≤ (i a).val
      ∧ (i a).val < win0_4.index t a * S16x256x256.size a + S16x256x256.size a := by
  show i ∈ ((View.whole main_v4_0).slice (win0_4.rect t)).set ↔ _
  rw [View.set_slice_whole, Rect.mem_set_unit]
  exact Iff.rfl

/-- Every plane is in some point's block: plane `k` in the block of point `k / 16`. -/
theorem cover4 (i : S512x256x256.Idx) :
    ∃ t : Fin cfg0.N, (cfg0.win 4).flush t = true ∧ i ∈ ((cfg0.win 4).blk t).view.set := by
  have hi0 : (i 0).val < 512 := (i 0).isLt
  have hi1 : (i 1).val < 256 := (i 1).isLt
  have hi2 : (i 2).val < 256 := (i 2).isLt
  obtain ⟨t, ht⟩ : ∃ t : Fin cfg0.N, t.val = (i 0).val / 16 :=
    ⟨⟨(i 0).val / 16, by have hN : cfg0.N = 32 := N_0; omega⟩, rfl⟩
  obtain ⟨e00, e01, e02, e10, e11, e12, e20, e21, e30, e31, e40, e41, e42, e50, e51, e52⟩ := idx_facts t
  refine ⟨t, flush0_4 t, ?_⟩
  rw [mem_blk4]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- THE ARRAY of output window 4 after the run: the merged argument scaled, every plane of it. -/
theorem final4 (c : Dev nD) :
    (dats m 0 c).arrAt 4 cfg0.N = scaledPlanes (V m c main_v0) (V m c main_v2) :=
  (dats m 0 c).arrAt_eq_of_cover 4 _ (fun t _ => flushed4_eq m c t) cover4

/-- WHAT POINT `t` WRITES BACK through output window 5: block `t` of the second merged argument scaled by the
    exponential of its exponent matrix. The input planes' block moves with the output's; the exponent matrix is one
    block, the same at every point. -/
theorem flushed5_eq (c : Dev nD) (t : Fin cfg0.N) :
    (dats m 0 c).flushed 5 t
      = ((cfg0.win 5).blk t).view.read (Elt F) (scaledPlanes (V m c main_v1) (V m c main_v3)) := by
  show (cfg0.win 5).cut (grid0.coords t) ((dats m 0 c).after 5 t) = _
  rw [after0_5]
  unfold out0_5
  rw [View.canon_unit_zero hz3]
  simp only [View.ld_unit_zero (S := S16x256x256) hz3, View.ld_unit_zero (S := S256x256) hz2]
  obtain ⟨e00, e01, e02, e10, e11, e12, e20, e21, e30, e31, e40, e41, e42, e50, e51, e52⟩ := idx_facts t
  funext j
  show k0_pay2 (iblk m c 3 t) (iblk m c 1 t) j = _
  refine (k0_pay2_apply (iblk m c 3 t) (iblk m c 1 t) j).trans ?_
  show FloatOps.mulf (V m c main_v1 (((cfg0.win 1).blk t).view.emb j))
      (FloatOps.exp (V m c main_v3 (((cfg0.win 3).blk t).view.emb (ix2 (j 1) (j 2)))))
    = FloatOps.mulf (V m c main_v1 (((cfg0.win 5).blk t).view.emb j))
      (FloatOps.exp (V m c main_v3 (ix2 ((((cfg0.win 5).blk t).view.emb j) 1) ((((cfg0.win 5).blk t).view.emb j) 2))))
  have hx : ((cfg0.win 1).blk t).view.emb j = ((cfg0.win 5).blk t).view.emb j := by
    funext a; apply Fin.ext
    match a with
    | ⟨0, _⟩ => show win0_1.index t (0 : Fin 3) * 16 + 1 * (j 0).val = win0_5.index t (0 : Fin 3) * 16 + 1 * (j 0).val; omega
    | ⟨1, _⟩ => show win0_1.index t (1 : Fin 3) * 256 + 1 * (j 1).val = win0_5.index t (1 : Fin 3) * 256 + 1 * (j 1).val; omega
    | ⟨2, _⟩ => show win0_1.index t (2 : Fin 3) * 256 + 1 * (j 2).val = win0_5.index t (2 : Fin 3) * 256 + 1 * (j 2).val; omega
  have hb : ((cfg0.win 3).blk t).view.emb (ix2 (j 1) (j 2))
      = ix2 ((((cfg0.win 5).blk t).view.emb j) 1) ((((cfg0.win 5).blk t).view.emb j) 2) := by
    funext a; apply Fin.ext
    match a with
    | ⟨0, _⟩ => show win0_3.index t (0 : Fin 2) * 256 + 1 * (j 1).val = win0_5.index t (1 : Fin 3) * 256 + 1 * (j 1).val; omega
    | ⟨1, _⟩ => show win0_3.index t (1 : Fin 2) * 256 + 1 * (j 2).val = win0_5.index t (2 : Fin 3) * 256 + 1 * (j 2).val; omega
  rw [hx, hb]
  rfl

/-- An index of the merged array is in point `t`'s block of window 5 iff each coordinate is in the block's range. -/
theorem mem_blk5 (t : Fin cfg0.N) (i : S512x256x256.Idx) :
    i ∈ ((cfg0.win 5).blk t).view.set ↔ ∀ a : Fin 3, win0_5.index t a * S16x256x256.size a ≤ (i a).val
      ∧ (i a).val < win0_5.index t a * S16x256x256.size a + S16x256x256.size a := by
  show i ∈ ((View.whole main_v4_1).slice (win0_5.rect t)).set ↔ _
  rw [View.set_slice_whole, Rect.mem_set_unit]
  exact Iff.rfl

/-- Every plane is in some point's block: plane `k` in the block of point `k / 16`. -/
theorem cover5 (i : S512x256x256.Idx) :
    ∃ t : Fin cfg0.N, (cfg0.win 5).flush t = true ∧ i ∈ ((cfg0.win 5).blk t).view.set := by
  have hi0 : (i 0).val < 512 := (i 0).isLt
  have hi1 : (i 1).val < 256 := (i 1).isLt
  have hi2 : (i 2).val < 256 := (i 2).isLt
  obtain ⟨t, ht⟩ : ∃ t : Fin cfg0.N, t.val = (i 0).val / 16 :=
    ⟨⟨(i 0).val / 16, by have hN : cfg0.N = 32 := N_0; omega⟩, rfl⟩
  obtain ⟨e00, e01, e02, e10, e11, e12, e20, e21, e30, e31, e40, e41, e42, e50, e51, e52⟩ := idx_facts t
  refine ⟨t, flush0_5 t, ?_⟩
  rw [mem_blk5]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- THE ARRAY of output window 5 after the run: the merged argument scaled, every plane of it. -/
theorem final5 (c : Dev nD) :
    (dats m 0 c).arrAt 5 cfg0.N = scaledPlanes (V m c main_v1) (V m c main_v3) :=
  (dats m 0 c).arrAt_eq_of_cover 5 _ (fun t _ => flushed5_eq m c t) cover5

end Cert.KernelIdeal.Blocks

end
-- ==== Proof.KernelValue.lean ====
/-
  The kernel's run, read: both results are the plane-by-plane scaling of the arguments.

  Before the pipeline the program merges the two leading axes of each plane argument, 32 × 16 planes becoming 512, and
  reshapes each exponent vector to a 256 × 256 matrix; after it, it splits the 512 planes of each output back into 32 × 16.
  The pipeline's output arrays are the merged arguments scaled plane by plane, so splitting them back gives, at
  (a, b, p, q), `x[a, b, p, q] · exp β[256·p + q]`: merging and splitting the leading axes undo each other, and entry (p, q) of
  the reshaped exponents is entry 256·p + q of the vector.
-/
import proofs.«112046_g29025388986544_feedfinal_290_2_alg».proof.Proof.KernelBlocks
import Idealize.ShloMosaic.Lib.StableHlo.Run

noncomputable section

namespace Cert.KernelIdeal.Result

open Cert.KernelIdeal Cert.KernelIdeal.Gen Cert.KernelIdeal.Blocks Idealize.ShloMosaic Idealize.ShloMosaic.TcCoe Idealize.SL.Sem
open Idealize.ShloMosaic.ValueIdx Cert.PlaneScale Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The arrays the pipeline finds: the arguments reshaped -/

/-- The first plane input is the first argument with its leading axes merged. -/
theorem V_main_v0 (c : Dev nD) :
    (V m c main_v0 : S512x256x256.Idx → Elt F .f32)
      = shapeCast S512x256x256 (m ((c : Thread nD τ).loc main_arg0)) shapeCasts_S32x16x256x256_S512x256x256 := by
  show StableHlo.after hostOps0 (fun b => m (c, b)) (Proc.devRef .tc main_v0) = _
  after_results
  rfl

/-- The second plane input is the second argument with its leading axes merged. -/
theorem V_main_v1 (c : Dev nD) :
    (V m c main_v1 : S512x256x256.Idx → Elt F .f32)
      = shapeCast S512x256x256 (m ((c : Thread nD τ).loc main_arg1)) shapeCasts_S32x16x256x256_S512x256x256 := by
  show StableHlo.after hostOps0 (fun b => m (c, b)) (Proc.devRef .tc main_v1) = _
  after_results
  rfl

/-- The first exponent matrix is the third argument read row by row. -/
theorem V_main_v2 (c : Dev nD) :
    (V m c main_v2 : S256x256.Idx → Elt F .f32)
      = shapeCast S256x256 (m ((c : Thread nD τ).loc main_arg2)) shapeCasts_S65536_S256x256 := by
  show StableHlo.after hostOps0 (fun b => m (c, b)) (Proc.devRef .tc main_v2) = _
  after_results
  rfl

/-- The second exponent matrix is the fourth argument read row by row. -/
theorem V_main_v3 (c : Dev nD) :
    (V m c main_v3 : S256x256.Idx → Elt F .f32)
      = shapeCast S256x256 (m ((c : Thread nD τ).loc main_arg3)) shapeCasts_S65536_S256x256 := by
  show StableHlo.after hostOps0 (fun b => m (c, b)) (Proc.devRef .tc main_v3) = _
  after_results
  rfl

/-! ## The results: the pipeline's output arrays with the leading axis split again -/

/-- The first result is the first output array of the pipeline, its 512 planes split into 32 × 16. -/
theorem tail_v5 (c : Dev nD) :
    Pipeline.afterTail₀ cfgs (dats m) 0 (V0 m) [hostOps1] c main_v5
      = shapeCast S32x16x256x256 ((dats m 0 c).arrAt 4 cfg0.N) shapeCasts_S512x256x256_S32x16x256x256 := by
  unfold Pipeline.afterTail₀
  show StableHlo.after hostOps1 _ (Proc.devRef .tc main_v5) = _
  after_results
  exact congrArg (fun X => shapeCast S32x16x256x256 X shapeCasts_S512x256x256_S32x16x256x256)
    (Pipeline.withArrays_arr spec0 launch0.win.arr_inj c (V0 m c) (fun w => (dats m 0 c).arrAt w cfg0.N) 4)

/-- The second result is the second output array of the pipeline, split the same way. -/
theorem tail_v6 (c : Dev nD) :
    Pipeline.afterTail₀ cfgs (dats m) 0 (V0 m) [hostOps1] c main_v6
      = shapeCast S32x16x256x256 ((dats m 0 c).arrAt 5 cfg0.N) shapeCasts_S512x256x256_S32x16x256x256 := by
  unfold Pipeline.afterTail₀
  show StableHlo.after hostOps1 _ (Proc.devRef .tc main_v6) = _
  after_results
  exact congrArg (fun X => shapeCast S32x16x256x256 X shapeCasts_S512x256x256_S32x16x256x256)
    (Pipeline.withArrays_arr spec0 launch0.win.arr_inj c (V0 m c) (fun w => (dats m 0 c).arrAt w cfg0.N) 5)

/-- THE FIRST RESULT is the first argument scaled by the exponential of the third. -/
theorem first_result (c : Dev nD) :
    Pipeline.afterTail₀ cfgs (dats m) 0 (V0 m) [hostOps1] c main_v5
      = scaled (m ((c : Thread nD τ).loc main_arg0)) (m ((c : Thread nD τ).loc main_arg2)) := by
  rw [tail_v5, final4, V_main_v0, V_main_v2]
  exact split_scaledPlanes _ _ _ _ _

/-- THE SECOND RESULT is the second argument scaled by the exponential of the fourth. -/
theorem second_result (c : Dev nD) :
    Pipeline.afterTail₀ cfgs (dats m) 0 (V0 m) [hostOps1] c main_v6
      = scaled (m ((c : Thread nD τ).loc main_arg1)) (m ((c : Thread nD τ).loc main_arg3)) := by
  rw [tail_v6, final5, V_main_v1, V_main_v3]
  exact split_scaledPlanes _ _ _ _ _

/-! ## The run -/

/-- Every weakly fair execution terminates with both results the scaled arguments and the arguments unchanged. -/
theorem run : θ_run defs (onTc (τ := τ) (main (F := F))) ⟨m, fun _ => 0, ρ⟩ fun r => ∀ c : Dev nD,
      r.2.mem ((c.tc : Thread nD τ).loc main_v5)
        = scaled (m ((c.tc : Thread nD τ).loc main_arg0)) (m ((c.tc : Thread nD τ).loc main_arg2))
      ∧ r.2.mem ((c.tc : Thread nD τ).loc main_v6)
        = scaled (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (first_result m c),
      ((h c).2 main_v6 (Pipeline.mem_restRefs_of main_v6 (by decide) (by decide))).trans (second_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference's two results are the plane-by-plane scaling of its arguments.

  The reference takes the exponential of each flat exponent vector, reshapes it to a 256 × 256 matrix and broadcasts the
  matrix over the 32 × 16 leading positions before multiplying. Read at (a, b, p, q), the broadcast drops the two leading
  coordinates and the reshape sends (p, q) to position 256·p + q of the flat vector, so the product there is
  `x[a, b, p, q] · exp β[256·p + q]`. On the extended reals the exponential applied on the host and the one the specification
  names are one function.
-/
import proofs.«112046_g29025388986544_feedfinal_290_2_alg».proof.Proof.Gen.ReferenceIdeal.Read
import proofs.«112046_g29025388986544_feedfinal_290_2_alg».proof.Proof.ScaleSpec

noncomputable section

namespace Cert.ReferenceIdeal.RefValue

open Cert.ReferenceIdeal Cert.ReferenceIdeal.Read Idealize.ShloMosaic Idealize.ShloMosaic.ValueIdx Cert.PlaneScale

/-- Through both broadcasts and the reshape, position (a, b, p, q) of the first product's scale reads the flat vector at
    256·p + q. -/
theorem scale_index_re (i : S32x16x256x256.Idx) :
    idx_main_v1 (idx_main_v4 (idx_main_v5 i)) = ix1 (flat (i 2) (i 3)) :=
  funext fun a => Fin.ext (by match a with | ⟨0, _⟩ => rfl)

/-- The same for the second product's scale. -/
theorem scale_index_im (i : S32x16x256x256.Idx) :
    idx_main_v3 (idx_main_v7 (idx_main_v8 i)) = ix1 (flat (i 2) (i 3)) :=
  funext fun a => Fin.ext (by match a with | ⟨0, _⟩ => rfl)

/-- The first result is the first argument scaled by the exponential of the third. -/
theorem first_result (x0 : (⟨S32x16x256x256, .f32⟩ : BufTy).Contents (Elt Ideal))
    (x2 : (⟨S65536, .f32⟩ : BufTy).Contents (Elt Ideal)) :
    val_main_v6 (F := Ideal) x0 x2 = scaled (F := Ideal) x0 x2 := by
  funext i
  rw [val_main_v6_apply, val_main_v5_apply, val_main_v4_apply, val_main_v1_apply, val_main_v0_apply, scale_index_re]
  rfl

/-- The second result is the second argument scaled by the exponential of the fourth. -/
theorem second_result (x1 : (⟨S32x16x256x256, .f32⟩ : BufTy).Contents (Elt Ideal))
    (x3 : (⟨S65536, .f32⟩ : BufTy).Contents (Elt Ideal)) :
    val_main_v9 (F := Ideal) x1 x3 = scaled (F := Ideal) x1 x3 := by
  funext i
  rw [val_main_v9_apply, val_main_v8_apply, val_main_v7_apply, val_main_v3_apply, val_main_v2_apply, scale_index_im]
  rfl

end Cert.ReferenceIdeal.RefValue

end
-- ==== Proof.lean ====
/-
  The certificate: a kernel that scales every 256 × 256 plane of two [32, 16, 256, 256] arrays, entry by entry, by the
  exponential of a 65536-entry vector read as a 256 × 256 matrix, against the same computation written with broadcasts.

  Both programs compute, at (a, b, p, q), `x[a, b, p, q] · exp β[256·p + q]` for each of the two (array, vector) pairs. The
  kernel merges the leading axes, scales sixteen planes per grid point by the exponential of the reshaped exponents, and
  splits the axes again; the reference exponentiates the flat vector, reshapes and broadcasts it, and multiplies. Reshaping
  commutes with an entry-by-entry exponential, merging then splitting the leading axes is the identity, and the 32 blocks of
  sixteen planes cover the 512 planes, so the two results are one function of the arguments. The products are never
  regrouped, so no finiteness of the inputs is used. The idealization rewrote nothing, so the kernel and its idealization
  are one text.
-/
import proofs.«112046_g29025388986544_feedfinal_290_2_alg».proof.Defs
import proofs.«112046_g29025388986544_feedfinal_290_2_alg».proof.Proof.Gen.Kernel
import proofs.«112046_g29025388986544_feedfinal_290_2_alg».proof.Proof.Gen.Kernel.Skeleton
import proofs.«112046_g29025388986544_feedfinal_290_2_alg».proof.Proof.Gen.Kernel.Launch
import proofs.«112046_g29025388986544_feedfinal_290_2_alg».proof.Proof.Gen.Kernel.Points
import proofs.«112046_g29025388986544_feedfinal_290_2_alg».proof.Proof.Gen.Kernel.Frame
import proofs.«112046_g29025388986544_feedfinal_290_2_alg».proof.Proof.Gen.KernelIdeal
import proofs.«112046_g29025388986544_feedfinal_290_2_alg».proof.Proof.Gen.KernelIdeal.Skeleton
import proofs.«112046_g29025388986544_feedfinal_290_2_alg».proof.Proof.Gen.KernelIdeal.Launch
import proofs.«112046_g29025388986544_feedfinal_290_2_alg».proof.Proof.Gen.KernelIdeal.Points
import proofs.«112046_g29025388986544_feedfinal_290_2_alg».proof.Proof.Gen.KernelIdeal.Frame
import proofs.«112046_g29025388986544_feedfinal_290_2_alg».proof.Proof.Gen.ReferenceIdeal
import proofs.«112046_g29025388986544_feedfinal_290_2_alg».proof.Proof.Gen.ReferenceIdeal.Run
import proofs.«112046_g29025388986544_feedfinal_290_2_alg».proof.Proof.Gen.ReferenceIdeal.Read
import proofs.«112046_g29025388986544_feedfinal_290_2_alg».proof.Proof.Gen.Pre_finite_inputs
import proofs.«112046_g29025388986544_feedfinal_290_2_alg».proof.Proof.KernelValue
import proofs.«112046_g29025388986544_feedfinal_290_2_alg».proof.Proof.RefValue
import Idealize.ShloMosaic.Adequacy
import Idealize.ShloMosaic.Init

noncomputable section

namespace Cert.Proof

open Idealize.ShloMosaic Idealize.SL.Sem Cert.PlaneScale

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals, from memories that agree on the four arguments, both programs end with the first result the
    first argument scaled by the exponential of the third and the second result the second scaled by the exponential of
    the fourth. -/
theorem algebraic : Cert.algebraic_KernelIdeal_ReferenceIdeal := by
  intro m ρ m' ρ' _ hagree
  refine ⟨fun c => scaled (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => scaled (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.Result.run (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v6_eq, Cert.ReferenceIdeal.RefValue.first_result,
      (hagree c).1, (hagree c).2.2.1]
  · rw [(h c).2.1, Cert.ReferenceIdeal.Read.val_main_v9_eq, Cert.ReferenceIdeal.RefValue.second_result,
      (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
